-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S16x2048x64 : Shape := ⟨3, ![16, 2048, 64]⟩
abbrev S1x256x64 : Shape := ⟨3, ![1, 256, 64]⟩
abbrev S1x2048x64 : Shape := ⟨3, ![1, 2048, 64]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x64, .f32⟩
  | .local _ .vmem, ⟨7, _⟩ => ⟨S1x256x64, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x64_S16x2048x64 : S1x16x2048x64.ShapeCasts S16x2048x64
  shapeCasts_S16x2048x64_S1x16x2048x64 : S16x2048x64.ShapeCasts S1x16x2048x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  shapeCasts_S256x64_S1x256x64 : S256x64.ShapeCasts S1x256x64
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S16x2048x64.size a
  hwx0_0 : ∀ i : grid0.Coords, EltTy.bits .f32 = 32 ∨ (Rect.block (s := S16x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x64.size a ≤ S16x2048x64.size a
  hwx0_3 : ∀ i : grid0.Coords, EltTy.bits .f32 = 32 ∨ (Rect.block (s := S16x2048x64) S1x256x64.size (cc0_transform_3 i) (hinb0_3 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_call0_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x256x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S_ : Shape := ⟨0, ![]⟩
abbrev S1x16x2048x2048 : Shape := ⟨4, ![1, 16, 2048, 2048]⟩
abbrev S1x16x2048 : Shape := ⟨3, ![1, 16, 2048]⟩
abbrev S1x16x2048x1 : Shape := ⟨4, ![1, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x16x2048x2048, .f32⟩
  | .hbm, ⟨8, _⟩ => ⟨S1x16x2048x2048, .f32⟩
  | .hbm, ⟨9, _⟩ => ⟨S1x16x2048x2048, .f32⟩
  | .hbm, ⟨10, _⟩ => ⟨S_, .f32⟩
  | .hbm, ⟨11, _⟩ => ⟨S1x16x2048, .f32⟩
  | .hbm, ⟨12, _⟩ => ⟨S1x16x2048x1, .f32⟩
  | .hbm, ⟨13, _⟩ => ⟨S1x16x2048x2048, .f32⟩
  | .hbm, ⟨14, _⟩ => ⟨S1x16x2048x2048, .f32⟩
  | .hbm, ⟨15, _⟩ => ⟨S1x16x2048x2048, .f32⟩
  | .hbm, ⟨16, _⟩ => ⟨S_, .f32⟩
  | .hbm, ⟨17, _⟩ => ⟨S1x16x2048, .f32⟩
  | .hbm, ⟨18, _⟩ => ⟨S1x16x2048x1, .f32⟩
  | .hbm, ⟨19, _⟩ => ⟨S1x16x2048x2048, .f32⟩
  | .hbm, ⟨20, _⟩ => ⟨S1x16x2048x2048, .f32⟩
  | .hbm, ⟨21, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.KernelDots.lean ====
/-
  The kernel's two matrix products read at an index. With a zero accumulator the first, q·kᵀ, is at
  (p, j) the sum over the 64 features of q[p, ·]·k[j, ·]; the second, weights·v, is at (p, d) the sum
  over the 2048 key positions of w[p, ·]·v[·, d].
-/
import proofs.«121440_g55705725829376_cont_9to1c4b_399_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## q·kᵀ: both operands contract their feature axis -/

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The logits block at (p, j): the inner product of query row p and key row j. -/
theorem matmul_qk_apply (A : FVec Ideal S256x64 .f32) (B : FVec Ideal S2048x64 .f32) (p : Fin 256) (j : Fin 2048) :
    matmul dot_S256x64_S2048x64_S256x2048_1_1_0_0_n_n none A B (constant (F := Ideal) S256x2048 .f32 0x00000000#32) (ix2 p j)
      = ∑ k : Fin 64, A (ix2 p k) * B (ix2 j k) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun k _ => ?_
  have hk := ValueIdx.contrEquiv1_symm_val dot_S256x64_S2048x64_S256x2048_1_1_0_0_n_n 64 rfl rfl k
  have el : dot_S256x64_S2048x64_S256x2048_1_1_0_0_n_n.lhsIdx (ix2 p j) ((ValueIdx.contrEquiv1 dot_S256x64_S2048x64_S256x2048_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S256x64_S2048x64_S256x2048_1_1_0_0_n_n.rhsIdx (ix2 p j) ((ValueIdx.contrEquiv1 dot_S256x64_S2048x64_S256x2048_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-! ## weights·v: the weights contract their key axis, the values their row axis -/

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The output block at (p, d): the weights of query row p against column d of the values. -/
theorem matmul_pv_apply (W : FVec Ideal S256x2048 .f32) (B : FVec Ideal S2048x64 .f32) (p : Fin 256) (d : Fin 64) :
    matmul dot_S256x2048_S2048x64_S256x64_1_0_0_1_n_n none W B (constant (F := Ideal) S256x64 .f32 0x00000000#32) (ix2 p d)
      = ∑ j : Fin 2048, W (ix2 p j) * B (ix2 j d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p d) ((ValueIdx.contrEquiv1 dot_S256x2048_S2048x64_S256x64_1_0_0_1_n_n 2048 rfl rfl).symm k) = ix2 p k := funext fun a => Fin.ext (by
    match a with
    | ⟨0, _⟩ => exact lhs_pv_0 _ _
    | ⟨1, _⟩ => exact (lhs_pv_1 _ _).trans hk)
  have er : dot_S256x2048_S2048x64_S256x64_1_0_0_1_n_n.rhsIdx (ix2 p d) ((ValueIdx.contrEquiv1 dot_S256x2048_S2048x64_S256x64_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

end Cert.KernelIdeal.Dots

end
-- ==== Proof.Softmax.lean ====
/-
  The row function of softmax attention on the extended reals. For a row of logits `L` and a column of
  values `V`, both indexed by the key position:

    attend L V = Σ_j  exp (L j − max L) / (Σ_k exp (L k − max L)) · V j

  where `max L` is the fold of `max` from −∞ over the row. Kernel and reference both compute exactly this
  expression at every (head, query row, feature); they differ only in how the logits row is laid out in
  memory, so everything after this file is about reading the two programs' logits and value columns.
-/
import Idealize.ShloMosaic.PureOps.Ideal

noncomputable section

namespace Cert.Softmax

open Idealize.ShloMosaic

variable {n : Nat}

/-- The row maximum: the fold of `max` over the row, from the pattern of `-∞`. -/
def rowMax (L : Fin n → EReal) : EReal :=
  (Finset.univ : Finset (Fin n)).fold max (Ideal.ofBits .f32 0xFF800000#32) L

/-- The shifted exponential `exp (L j − max L)`. -/
def expShift (L : Fin n → EReal) (j : Fin n) : EReal := Ideal.exp (L j - rowMax L)

/-- The softmax-weighted sum of the column `V` under the logits `L`. -/
def attend (L V : Fin n → EReal) : EReal :=
  ∑ j : Fin n, Ideal.div (expShift L j) (∑ k : Fin n, expShift L k) * V j

end Cert.Softmax

end
-- ==== Proof.KernelRow.lean ====
/-
  One block of the kernel, read at an index. The body holds a 256-row block of queries and a whole head of
  keys and values. Row p of its output is, at feature d, the softmax-weighted sum `attend L V` with
  L j = (Σ_k q[p,k]·k[j,k]) · 0.125 and V j = v[j,d]: the row maximum and the row sum are reductions along
  the key axis, put back on every column by a keepdims broadcast.
-/
import proofs.«121440_g55705725829376_cont_9to1c4b_399_2_alg».proof.Proof.Gen.KernelIdeal.Skeleton
import proofs.«121440_g55705725829376_cont_9to1c4b_399_2_alg».proof.Proof.KernelDots
import proofs.«121440_g55705725829376_cont_9to1c4b_399_2_alg».proof.Proof.Softmax
import Idealize.ShloMosaic.Lib.Pipeline.Value
import Idealize.ShloMosaic.Lib.ValueLayout

noncomputable section

namespace Cert.KernelIdeal.Row

open Cert.KernelIdeal Cert.KernelIdeal.Gen Cert.KernelIdeal.Dots Cert.Softmax
open Idealize.ShloMosaic Idealize.ShloMosaic.ValueIdx

/-- The index a reduction along the key axis inserts at row p, position k, is (p, k). -/
theorem lift_eq (h : S256x2048.Reduces [1] S256) (p : Fin 256) (k : Fin 2048) : h.lift (ix1 p) k = ix2 p k :=
  funext fun a => Fin.ext (by match a with | ⟨0, _⟩ => rfl | ⟨1, _⟩ => rfl)

/-- The row sum at row p is the sum of the row's entries. -/
theorem rowsum_apply (X : FVec Ideal S256x2048 .f32) (h : S256x2048.Reduces [1] S256) (hφ : FKind.Formats .f32)
    (hadd : (0x00000000#32 : BitVec 32) = FKind.add.neutral .f32 hφ) (p : Fin 256) :
    multiReduction .add [1] S256 X 0x00000000#32 h hφ hadd (ix1 p) = ∑ j : Fin 2048, X (ix2 p j) :=
  (Ideal.multiReduction_add_single X 0x00000000#32 h hφ hadd (ix1 p)).trans
    (Finset.sum_congr rfl fun k _ => congrArg X (lift_eq h p k))

/-- The row maximum at row p is the fold of `max` from −∞ over the row's entries. -/
theorem rowmax_apply (X : FVec Ideal S256x2048 .f32) (h : S256x2048.Reduces [1] S256) (hφ : FKind.Formats .f32)
    (hmax : (0xFF800000#32 : BitVec 32) = FKind.maximumf.neutral .f32 hφ) (p : Fin 256) :
    multiReduction .maximumf [1] S256 X 0xFF800000#32 h hφ hmax (ix1 p) = rowMax (fun j : Fin 2048 => X (ix2 p j)) :=
  (Ideal.multiReduction_maximumf_single X 0xFF800000#32 h hφ hmax (ix1 p)).trans
    (congrArg (fun f : Fin 2048 → EReal => (Finset.univ : Finset (Fin 2048)).fold max (Ideal.ofBits .f32 0xFF800000#32) f)
      (funext fun k => congrArg X (lift_eq h p k)))

/-- A per-row value kept as a column and broadcast along the key axis reads, at (p, j), the row's value. -/
theorem keepdims_col_apply {α : Type} (y : S256.Idx → α) (hc : S256.ShapeCasts S256x1) (hb : S256x1.Broadcasts S256x2048)
    (p : Fin 256) (j : Fin 2048) : broadcastTo S256x2048 (shapeCast S256x1 y hc) hb (ix2 p j) = y (ix1 p) := by
  refine (broadcastTo_apply _ hb (ix2 p j) (ix2 p (0 : Fin 1)) fun ax => ?_).trans ?_
  · match ax with
    | ⟨0, _⟩ => show p.val = if (256 : Nat) = 1 then 0 else p.val; rw [if_neg (by decide)]
    | ⟨1, _⟩ => show 0 = if (1 : Nat) = 1 then 0 else j.val; rw [if_pos rfl]
  · exact shapeCast_apply y hc _ _ (by
      rw [Shape.rowMajor_val_two, Shape.rowMajor_val_one]
      show p.val = p.val * 1 + 0
      omega)

/-- The shifted exponentials of a logits block, read at (p, k). -/
theorem exp_block_apply (X : FVec Ideal S256x2048 .f32) (h : S256x2048.Reduces [1] S256) (hφ : FKind.Formats .f32)
    (hmax : (0xFF800000#32 : BitVec 32) = FKind.maximumf.neutral .f32 hφ)
    (hc : S256.ShapeCasts S256x1) (hb : S256x1.Broadcasts S256x2048) (p : Fin 256) (k : Fin 2048) :
    (exp (subf X (broadcastTo S256x2048 (shapeCast S256x1 (multiReduction .maximumf [1] S256 X 0xFF800000#32 h hφ hmax) hc) hb))) (ix2 p k) = expShift (fun j : Fin 2048 => X (ix2 p j)) k := by
  show Ideal.exp (X (ix2 p k) - (broadcastTo S256x2048 (shapeCast S256x1 (multiReduction .maximumf [1] S256 X 0xFF800000#32 h hφ hmax) hc) hb) (ix2 p k)) = Ideal.exp (X (ix2 p k) - rowMax (fun j : Fin 2048 => X (ix2 p j)))
  rw [keepdims_col_apply, rowmax_apply]

/-- The kernel's softmax of a logits block `X`, multiplied into the values `B`, is at (p, d) the softmax-weighted
    sum of column d under row p of the logits. -/
theorem softmax_block_apply (X : FVec Ideal S256x2048 .f32) (B : FVec Ideal S2048x64 .f32)
    (h : S256x2048.Reduces [1] S256) (hφ : FKind.Formats .f32)
    (hmax : (0xFF800000#32 : BitVec 32) = FKind.maximumf.neutral .f32 hφ)
    (hadd : (0x00000000#32 : BitVec 32) = FKind.add.neutral .f32 hφ)
    (hc : S256.ShapeCasts S256x1) (hb : S256x1.Broadcasts S256x2048) (p : Fin 256) (d : Fin 64) :
    matmul dot_S256x2048_S2048x64_S256x64_1_0_0_1_n_n none (divf (exp (subf X (broadcastTo S256x2048 (shapeCast S256x1 (multiReduction .maximumf [1] S256 X 0xFF800000#32 h hφ hmax) hc) hb))) (broadcastTo S256x2048 (shapeCast S256x1 (multiReduction .add [1] S256 (exp (subf X (broadcastTo S256x2048 (shapeCast S256x1 (multiReduction .maximumf [1] S256 X 0xFF800000#32 h hφ hmax) hc) hb))) 0x00000000#32 h hφ hadd) hc) hb)) B (constant (F := Ideal) S256x64 .f32 0x00000000#32) (ix2 p d)
      = attend (fun j : Fin 2048 => X (ix2 p j)) (fun j : Fin 2048 => B (ix2 j d)) := by
  refine (matmul_pv_apply _ B p d).trans ?_
  unfold attend
  refine Finset.sum_congr rfl fun j _ => congrArg (· * B (ix2 j d)) ?_
  show Ideal.div ((exp (subf X (broadcastTo S256x2048 (shapeCast S256x1 (multiReduction .maximumf [1] S256 X 0xFF800000#32 h hφ hmax) hc) hb))) (ix2 p j)) ((broadcastTo S256x2048 (shapeCast S256x1 (multiReduction .add [1] S256 (exp (subf X (broadcastTo S256x2048 (shapeCast S256x1 (multiReduction .maximumf [1] S256 X 0xFF800000#32 h hφ hmax) hc) hb))) 0x00000000#32 h hφ hadd) hc) hb) (ix2 p j)) = _
  rw [exp_block_apply, keepdims_col_apply, rowsum_apply]
  exact congrArg (Ideal.div _) (Finset.sum_congr rfl fun k _ => exp_block_apply X h hφ hmax hc hb p k)

/-- THE PAYLOAD AT AN INDEX: what the body stores at row p, feature d of its output block, from its three loaded
    blocks. -/
theorem pay_apply (x0 : Vec Ideal S1x256x64 .f32) (x1 x2 : Vec Ideal S1x2048x64 .f32) (u : Fin 1) (p : Fin 256) (d : Fin 64) :
    k0_pay1 (F := Ideal) x0 x1 x2 (ix3 u p d)
      = attend (fun j : Fin 2048 => (∑ k : Fin 64, x0 (ix3 (0 : Fin 1) p k) * x1 (ix3 (0 : Fin 1) j k)) * Ideal.ofBits .f32 0x3E000000#32)
          (fun j : Fin 2048 => x2 (ix3 (0 : Fin 1) j d)) := by
  unfold k0_pay1
  refine (shapeCast_ab_1ab_apply _ _ u p d).trans ?_
  refine (softmax_block_apply _ _ _ _ _ _ _ _ p d).trans ?_
  refine congrArg₂ attend (funext fun j => ?_) (funext fun j => ?_)
  · refine congrArg (· * Ideal.ofBits .f32 0x3E000000#32) ?_
    refine (matmul_qk_apply _ _ p j).trans (Finset.sum_congr rfl fun k _ => ?_)
    exact congrArg₂ (· * ·) (shapeCast_1ab_ab_apply x0 _ p k) (shapeCast_1ab_ab_apply x1 _ j k)
  · exact shapeCast_1ab_ab_apply x2 _ j d

end Cert.KernelIdeal.Row

end
-- ==== Proof.Attention.lean ====
/-
  Dense softmax attention as ONE function of the argument arrays, index by index.

  For q, k, v of shape [1, 16, 2048, 64] the result at (0, h, r, d) is `attend L V` (Softmax.lean) with
    L j = (Σ_e q[0,h,r,e] · k[0,h,j,e]) · (1/8)      the scaled logits of query row r against every key row,
    V j = v[0,h,j,d]                                  column d of the head's values.
  The kernel works on the arrays with the unit batch axis dropped, [16, 2048, 64]; `out3` is the same function
  there, and `out_eq_out3` says the two agree through the reshapes.
-/
import proofs.«121440_g55705725829376_cont_9to1c4b_399_2_alg».proof.Proof.Softmax
import Idealize.ShloMosaic.Lib.ValueIdx
import Idealize.ShloMosaic.Lib.ValueLayout

noncomputable section

namespace Cert.Attention

open Idealize.ShloMosaic Idealize.ShloMosaic.ValueIdx Cert.Softmax

/-- The arguments' shape, and the same with the unit batch axis dropped. -/
abbrev S4 : Shape := ⟨4, ![1, 16, 2048, 64]⟩
abbrev S3 : Shape := ⟨3, ![16, 2048, 64]⟩

/-- The softmax scale 1/8, as the pattern of the float `0.125`. -/
def scale : EReal := Ideal.ofBits .f32 0x3E000000#32

/-- The scaled logits of head `h`, query row `r`, against every key row. -/
def logits (q k : S4.Idx → EReal) (h : Fin 16) (r : Fin 2048) : Fin 2048 → EReal :=
  fun j => (∑ e : Fin 64, q (ix4 (0 : Fin 1) h r e) * k (ix4 (0 : Fin 1) h j e)) * scale

/-- Column `d` of head `h`'s values. -/
def column (v : S4.Idx → EReal) (h : Fin 16) (d : Fin 64) : Fin 2048 → EReal :=
  fun j => v (ix4 (0 : Fin 1) h j d)

/-- Attention, index by index. -/
def out (q k v : S4.Idx → EReal) : S4.Idx → EReal :=
  fun i => attend (logits q k (i 1) (i 2)) (column v (i 1) (i 3))

/-- The same three over the arrays without the batch axis. -/
def logits3 (q k : S3.Idx → EReal) (h : Fin 16) (r : Fin 2048) : Fin 2048 → EReal :=
  fun j => (∑ e : Fin 64, q (ix3 h r e) * k (ix3 h j e)) * scale
def column3 (v : S3.Idx → EReal) (h : Fin 16) (d : Fin 64) : Fin 2048 → EReal :=
  fun j => v (ix3 h j d)
def out3 (q k v : S3.Idx → EReal) : S3.Idx → EReal :=
  fun i => attend (logits3 q k (i 0) (i 1)) (column3 v (i 0) (i 2))

/-- Dropping the batch axis of the three arguments, attending, and putting the axis back is attention. -/
theorem out_eq_out3 (q k v : S4.Idx → EReal) (h43 : S4.ShapeCasts S3) (h34 : S3.ShapeCasts S4) :
    shapeCast S4 (out3 (shapeCast S3 q h43) (shapeCast S3 k h43) (shapeCast S3 v h43)) h34 = out q k v := by
  funext i
  obtain ⟨u, h, r, d, rfl⟩ : ∃ (u : Fin 1) (h : Fin 16) (r : Fin 2048) (d : Fin 64), i = ix4 u h r d :=
    ⟨i 0, i 1, i 2, i 3, eq_ix4 i⟩
  refine (shapeCast_abc_1abc_apply _ h34 u h r d).trans ?_
  show attend (logits3 _ _ h r) (column3 _ h d) = attend (logits q k h r) (column v h d)
  refine congrArg₂ attend (funext fun j => ?_) (funext fun j => ?_)
  · show (∑ e : Fin 64, _ * _) * scale = (∑ e : Fin 64, _ * _) * scale
    refine congrArg (· * scale) (Finset.sum_congr rfl fun e _ => ?_)
    exact congrArg₂ (· * ·) (shapeCast_1abc_abc_apply q h43 h r e) (shapeCast_1abc_abc_apply k h43 h j e)
  · exact shapeCast_1abc_abc_apply v h43 h j d

end Cert.Attention

end
-- ==== Proof.KernelArray.lean ====
/-
  The kernel's run, read as values. Grid point t = (head h, query block b) loads rows 256·b … 256·b+255 of
  head h's queries and all of head h's keys and values, and writes back the same rows of head h's output.
  Every output index lies in exactly one such block, so after the last point the region's output array is
  attention (`out3`) of the three input arrays; the host lines before the region only drop the unit batch
  axis of the arguments and the line after it puts the axis back.
-/
import proofs.«121440_g55705725829376_cont_9to1c4b_399_2_alg».proof.Proof.Gen.KernelIdeal.Frame
import proofs.«121440_g55705725829376_cont_9to1c4b_399_2_alg».proof.Proof.KernelRow
import proofs.«121440_g55705725829376_cont_9to1c4b_399_2_alg».proof.Proof.Attention
import Idealize.ShloMosaic.Lib.Pipeline.Value
import Idealize.ShloMosaic.Lib.StableHlo.Run

set_option maxRecDepth 16384

noncomputable section

namespace Cert.KernelIdeal.Array

open Cert.KernelIdeal Cert.KernelIdeal.Gen Cert.KernelIdeal.Row Cert.Softmax Cert.Attention
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The index maps, decided over the 128 grid points -/

theorem zero_offsets : (![0, 0, 0] : Fin 3 → Nat) = fun _ => 0 := funext fun a => by fin_cases a <;> rfl

/-- The query window moves with the output window; the key and value windows follow its head and stay at row
    block 0; no window moves along the feature axis; the output's head is below 16 and its row block below 8. -/
theorem windows_follow_output : ∀ t : Fin cfg0.N,
    win0_0.index t (0 : Fin 3) = win0_3.index t (0 : Fin 3) ∧ win0_0.index t (1 : Fin 3) = win0_3.index t (1 : Fin 3) ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 15 ∧ win0_3.index t (1 : Fin 3) ≤ 7 ∧ win0_3.index t (2 : Fin 3) = 0 :=
  (by decide +kernel : ∀ t : Fin grid0.N, _)

/-- Every (head, row block) is some point's. -/
theorem every_row_block_visited : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## The arrays the region finds: the arguments without their batch axis -/

theorem entry_queries (c : Dev nD) : (V m c main_call0_v0 : S16x2048x64.Idx → EReal)
    = shapeCast S16x2048x64 (m ((c : Thread nD τ).loc main_arg0)) shapeCasts_S1x16x2048x64_S16x2048x64 := by
  show StableHlo.after hostOps0 (fun b => m (c, b)) (Proc.devRef .tc main_call0_v0) = _
  after_results
  rfl
theorem entry_keys (c : Dev nD) : (V m c main_call0_v1 : S16x2048x64.Idx → EReal)
    = shapeCast S16x2048x64 (m ((c : Thread nD τ).loc main_arg1)) shapeCasts_S1x16x2048x64_S16x2048x64 := by
  show StableHlo.after hostOps0 (fun b => m (c, b)) (Proc.devRef .tc main_call0_v1) = _
  after_results
  rfl
theorem entry_values (c : Dev nD) : (V m c main_call0_v2 : S16x2048x64.Idx → EReal)
    = shapeCast S16x2048x64 (m ((c : Thread nD τ).loc main_arg2)) shapeCasts_S1x16x2048x64_S16x2048x64 := by
  show StableHlo.after hostOps0 (fun b => m (c, b)) (Proc.devRef .tc main_call0_v2) = _
  after_results
  rfl

/-! ## One block against the arrays -/

/-- If, at output index `i` = (head, row, feature), the loaded blocks hold the row's queries and the head's keys
    and values, then the payload at the block position (p, d) that `i` occupies is attention at `i`. -/
theorem payload_is_attention_at (Q K W : S3.Idx → EReal) (x0 : Vec Ideal S1x256x64 .f32) (x1 x2 : Vec Ideal S1x2048x64 .f32)
    (i : S3.Idx) (u : Fin 1) (p : Fin 256) (d : Fin 64)
    (hq : ∀ e : Fin 64, x0 (ix3 (0 : Fin 1) p e) = Q (ix3 (i 0) (i 1) e))
    (hk : ∀ (j : Fin 2048) (e : Fin 64), x1 (ix3 (0 : Fin 1) j e) = K (ix3 (i 0) j e))
    (hv : ∀ j : Fin 2048, x2 (ix3 (0 : Fin 1) j d) = W (ix3 (i 0) j (i 2))) :
    k0_pay1 (F := Ideal) x0 x1 x2 (ix3 u p d) = out3 Q K W i := by
  rw [pay_apply]
  show attend _ _ = attend (logits3 Q K (i 0) (i 1)) (column3 W (i 0) (i 2))
  refine congrArg₂ attend (funext fun j => ?_) (funext fun j => hv j)
  show (∑ e : Fin 64, _) * _ = (∑ e : Fin 64, _) * scale
  refine congrArg (· * scale) (Finset.sum_congr rfl fun e _ => ?_)
  rw [hq e, hk j e]

/-! ## What a point writes back -/

/-- WHAT POINT `t` WRITES BACK is block `t` of attention of the arrays the region finds. -/
theorem point_writes_attention_block (c : Dev nD) (t : Fin cfg0.N) :
    (dats m 0 c).flushed 3 t = ((cfg0.win 3).blk t).view.read (Elt Ideal)
      (out3 (V m c main_call0_v0) (V m c main_call0_v1) (V m c main_call0_v2)) := by
  show (cfg0.win 3).cut (grid0.coords t) ((dats m 0 c).after 3 t) = _
  rw [after0_3]
  unfold out0_3
  rw [View.canon_unit_zero zero_offsets]
  simp only [View.ld_unit_zero (S := S1x256x64) zero_offsets, View.ld_unit_zero (S := S1x2048x64) zero_offsets]
  obtain ⟨e00, e01, e02, e10, e11, e12, e20, e21, e22, b0, b1, e32⟩ := windows_follow_output t
  funext y
  obtain ⟨u, p, d, rfl⟩ : ∃ (u : Fin 1) (p : Fin 256) (d : Fin 64), y = ix3 u p d := ⟨y 0, y 1, y 2, eq_ix3 y⟩
  have hu : u.val = 0 := by omega
  refine payload_is_attention_at (V m c main_call0_v0) (V m c main_call0_v1) (V m c main_call0_v2)
    (iblk m c 0 t) (iblk m c 1 t) (iblk m c 2 t) (((cfg0.win 3).blk t).view.emb (ix3 u p d)) u p d
    (fun e => ?_) (fun j e => ?_) (fun j => ?_)
  · show V m c main_call0_v0 (((cfg0.win 0).blk t).view.emb (ix3 (0 : Fin 1) p e)) = _
    refine congrArg (V m c main_call0_v0) (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 256 + 1 * p.val = win0_3.index t (1 : Fin 3) * 256 + 1 * p.val; omega
    | ⟨2, _⟩ => show win0_0.index t (2 : Fin 3) * 64 + 1 * e.val = e.val; omega
  · show V m c main_call0_v1 (((cfg0.win 1).blk t).view.emb (ix3 (0 : Fin 1) j e)) = _
    refine congrArg (V m c main_call0_v1) (funext fun a => Fin.ext ?_)
    match a with
    | ⟨0, _⟩ => show win0_1.index t (0 : Fin 3) * 1 + 1 * 0 = win0_3.index t (0 : Fin 3) * 1 + 1 * u.val; omega
    | ⟨1, _⟩ => show win0_1.index t (1 : Fin 3) * 2048 + 1 * j.val = j.val; omega
    | ⟨2, _⟩ => show win0_1.index t (2 : Fin 3) * 64 + 1 * e.val = e.val; omega
  · show V m c main_call0_v2 (((cfg0.win 2).blk t).view.emb (ix3 (0 : Fin 1) j d)) = _
    refine congrArg (V m c main_call0_v2) (funext fun a => Fin.ext ?_)
    match a with
    | ⟨0, _⟩ => show win0_2.index t (0 : Fin 3) * 1 + 1 * 0 = win0_3.index t (0 : Fin 3) * 1 + 1 * u.val; omega
    | ⟨1, _⟩ => show win0_2.index t (1 : Fin 3) * 2048 + 1 * j.val = j.val; omega
    | ⟨2, _⟩ => show win0_2.index t (2 : Fin 3) * 64 + 1 * d.val = win0_3.index t (2 : Fin 3) * 64 + 1 * d.val; omega

/-! ## The blocks tile the output -/

/-- An index of the output array is in point `t`'s block iff each coordinate is in the block's range on its axis. -/
theorem mem_output_block_iff (t : Fin cfg0.N) (i : S16x2048x64.Idx) :
    i ∈ ((cfg0.win 3).blk t).view.set ↔ ∀ a : Fin 3, win0_3.index t a * S1x256x64.size a ≤ (i a).val ∧ (i a).val < win0_3.index t a * S1x256x64.size a + S1x256x64.size a := by
  show i ∈ ((View.whole main_call0_v3).slice (win0_3.rect t)).set ↔ _
  rw [View.set_slice_whole, Rect.mem_set_unit]
  exact Iff.rfl

/-- Every output index is in the block of the point at its head and its row's block of 256. -/
theorem output_blocks_cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := every_row_block_visited ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_output_block_iff]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 64 ≤ (i 2).val ∧ (i 2).val < win0_3.index t (2 : Fin 3) * 64 + 64; omega

/-- THE REGION'S OUTPUT ARRAY after the last point: attention of the arrays the region finds. -/
theorem region_output_is_attention (c : Dev nD) : (dats m 0 c).arrAt 3 cfg0.N
    = out3 (V m c main_call0_v0) (V m c main_call0_v1) (V m c main_call0_v2) :=
  (dats m 0 c).arrAt_eq_of_cover 3 _ (fun t _ => point_writes_attention_block m c t) output_blocks_cover

/-! ## The line after the region, and the run -/

/-- The result buffer after the last host line: the region's output array with the batch axis put back. -/
theorem result_is_region_output_rebatched (c : Dev nD) :
    (Pipeline.afterTail₀ cfgs (dats m) 0 (V0 m) [hostOps1] c main_v0 : S1x16x2048x64.Idx → EReal)
      = shapeCast S1x16x2048x64 ((dats m 0 c).arrAt 3 cfg0.N) shapeCasts_S16x2048x64_S1x16x2048x64 := by
  unfold Pipeline.afterTail₀
  show StableHlo.after hostOps1 _ (Proc.devRef .tc main_v0) = _
  after_results
  exact congrArg (fun x : S16x2048x64.Idx → EReal => shapeCast S1x16x2048x64 x shapeCasts_S16x2048x64_S1x16x2048x64)
    (Pipeline.withArrays_arr spec0 launch0.win.arr_inj c _ _ 3)

/-- The result buffer after the run is attention of the three arguments as launched. -/
theorem result_is_attention (c : Dev nD) :
    (Pipeline.afterTail₀ cfgs (dats m) 0 (V0 m) [hostOps1] c main_v0 : S1x16x2048x64.Idx → EReal)
      = out (m ((c : Thread nD τ).loc main_arg0)) (m ((c : Thread nD τ).loc main_arg1)) (m ((c : Thread nD τ).loc main_arg2)) := by
  rw [result_is_region_output_rebatched, region_output_is_attention, entry_queries, entry_keys, entry_values]
  exact out_eq_out3 _ _ _ shapeCasts_S1x16x2048x64_S16x2048x64 shapeCasts_S16x2048x64_S1x16x2048x64

/-- THE KERNEL'S RUN: every weakly fair execution terminates with the result buffer at attention of the arguments, and
    the arguments unchanged. -/
theorem run : θ_run defs (onTc (τ := τ) (main (F := Ideal))) ⟨m, fun _ => 0, ρ⟩ fun r => ∀ c : Dev nD,
      r.2.mem ((c.tc : Thread nD τ).loc main_v0)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v0 (Pipeline.mem_restRefs_of main_v0 (by decide) (by decide))).trans (result_is_attention m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Array

end
-- ==== Proof.Scale.lean ====
/-
  The softmax scale. The kernel multiplies the logits by the float literal 0.125; the reference by
  1 / sqrt 64, computed from the literals 1.0 and 64.0. On the extended reals sqrt 64 = 8 exactly
  (64 = 8 ^ 2), so both are the rational 1 / 8.
-/
import Idealize.ShloMosaic.PureOps.Ideal

noncomputable section

namespace Cert.Scale

open Idealize.ShloMosaic

/-- The pattern of `1.0` denotes the real `1`. -/
theorem ofBits_one : Ideal.ofBits .f32 0x3F800000#32 = 1 := by
  simp [Ideal.ofBits, Ideal.ieee, -EReal.coe_mul]; norm_num

/-- The pattern of `64.0` denotes the real `64`. -/
theorem ofBits_64 : Ideal.ofBits .f32 0x42800000#32 = ((64 : ℝ) : EReal) := by
  simp [Ideal.ofBits, Ideal.ieee, -EReal.coe_mul]; norm_num

/-- The pattern of `0.125` denotes the real `1 / 8`. -/
theorem ofBits_eighth : Ideal.ofBits .f32 0x3E000000#32 = ((1 / 8 : ℝ) : EReal) := by
  simp [Ideal.ofBits, Ideal.ieee, -EReal.coe_mul]; norm_num

/-- `64` is the square of `8`. -/
theorem sqrt_64 : Real.sqrt 64 = 8 := by
  rw [show (64 : ℝ) = 8 ^ 2 by norm_num]
  exact Real.sqrt_sq (by norm_num)

/-- The reference's scale `1 / sqrt 64` is the kernel's literal `0.125`: both denote `1 / 8`. -/
theorem scale_eq :
    Ideal.div (Ideal.ofBits .f32 0x3F800000#32) (Ideal.sqrt (Ideal.ofBits .f32 0x42800000#32))
      = Ideal.ofBits .f32 0x3E000000#32 := by
  rw [ofBits_one, ofBits_64, ofBits_eighth, Ideal.sqrt_coe, if_neg (by norm_num), sqrt_64,
    Ideal.div_coe (by norm_num), one_mul]

end Cert.Scale

end
-- ==== Proof.RefValue.lean ====
/-
  The reference, read as values. Its operations, one at a time: the scale 1/sqrt 64 (= 1/8, Scale.lean), the
  logits q·kᵀ scaled, their row maximum kept as a column, the shifted exponentials, their row sum kept as a
  column, the quotient, and the product with v. At index (0, h, r, d) they compose to `attend` of head h's
  logits row r and value column d: the function `out` of Attention.lean.
-/
import proofs.«121440_g55705725829376_cont_9to1c4b_399_2_alg».proof.Proof.Gen.ReferenceIdeal.Run
import proofs.«121440_g55705725829376_cont_9to1c4b_399_2_alg».proof.Proof.Gen.ReferenceIdeal.Read
import proofs.«121440_g55705725829376_cont_9to1c4b_399_2_alg».proof.Proof.Attention
import proofs.«121440_g55705725829376_cont_9to1c4b_399_2_alg».proof.Proof.Scale
import Idealize.ShloMosaic.PureOps.Reduce

noncomputable section

namespace Cert.ReferenceIdeal.RefValue

open Cert.ReferenceIdeal Cert.ReferenceIdeal.Gen Cert.ReferenceIdeal.Read Cert.Softmax Cert.Attention
open Idealize.ShloMosaic Idealize.ShloMosaic.ValueIdx

variable (q k v : S1x16x2048x64.Idx → EReal)

/-- The scaled logits: the reference's product with 1/sqrt 64 is the product with 1/8. -/
theorem logit_apply (h : Fin 16) (r j : Fin 2048) :
    val_main_v4 (F := Ideal) q k (ix4 (0 : Fin 1) h r j) = logits q k h r j := by
  rw [val_main_v4_apply, val_main_v2_apply, val_main_v3_apply, val_main_v1_apply, val_main_cst_0_apply,
    val_main_v0_apply, val_main_cst_apply]
  show (∑ e : Fin 64, q (lidx_main_v2 (ix4 (0 : Fin 1) h r j) e) * k (ridx_main_v2 (ix4 (0 : Fin 1) h r j) e))
      * Ideal.div (Ideal.ofBits .f32 0x3F800000#32) (Ideal.sqrt (Ideal.ofBits .f32 0x42800000#32)) = _
  rw [Cert.Scale.scale_eq]
  refine congrArg (· * scale) (Finset.sum_congr rfl fun e _ => ?_)
  exact congrArg₂ (· * ·) (congrArg q (funext fun a => Fin.ext (by match a with | ⟨0, _⟩ => rfl | ⟨1, _⟩ => rfl | ⟨2, _⟩ => rfl | ⟨3, _⟩ => rfl))) (congrArg k (funext fun a => Fin.ext (by match a with | ⟨0, _⟩ => rfl | ⟨1, _⟩ => rfl | ⟨2, _⟩ => rfl | ⟨3, _⟩ => rfl)))

/-- The key axis of the logits is reduced away. -/
theorem reduces_keys : S1x16x2048x2048.Reduces [3] S1x16x2048 := by decide

/-- The index that reduction inserts at (0, h, r), position j, is (0, h, r, j). -/
theorem lift_eq (h : Fin 16) (r j : Fin 2048) :
    reduces_keys.lift (ix3 (0 : Fin 1) h r) j = ix4 (0 : Fin 1) h r j :=
  (funext fun a => Fin.ext (by match a with | ⟨0, _⟩ => rfl | ⟨1, _⟩ => rfl | ⟨2, _⟩ => rfl | ⟨3, _⟩ => rfl))

/-- The row maximum: the host's max-reduce along the key axis is the fold of `max` from −∞ over the row. -/
theorem rowmax_apply (h : Fin 16) (r : Fin 2048) :
    val_main_v5 (F := Ideal) q k (ix3 (0 : Fin 1) h r) = rowMax (logits q k h r) := by
  unfold val_main_v5
  refine (Host.reduce_eq_fold_single FloatOps.maximumf _ _ reducesTo_S1x16x2048x2048_S1x16x2048_d3 reduces_keys h_S_
    (ix3 (0 : Fin 1) h r)).trans ?_
  show (Finset.univ : Finset (Fin 2048)).fold max (Ideal.ofBits .f32 0xFF800000#32)
    (fun j : Fin 2048 => val_main_v4 (F := Ideal) q k (reduces_keys.lift (ix3 (0 : Fin 1) h r) j)) = rowMax (logits q k h r)
  unfold rowMax
  refine congrArg (fun f : Fin 2048 → EReal => (Finset.univ : Finset (Fin 2048)).fold max (Ideal.ofBits .f32 0xFF800000#32) f)
    (funext fun j => ?_)
  exact (congrArg (val_main_v4 (F := Ideal) q k) (lift_eq h r j)).trans (logit_apply q k h r j)

/-- The shifted exponentials. -/
theorem exp_apply (h : Fin 16) (r j : Fin 2048) :
    val_main_v9 (F := Ideal) q k (ix4 (0 : Fin 1) h r j) = expShift (logits q k h r) j := by
  rw [val_main_v9_apply, val_main_v8_apply, val_main_v7_apply, val_main_v6_apply]
  show Ideal.exp (val_main_v4 (F := Ideal) q k (ix4 (0 : Fin 1) h r j)
    - val_main_v5 (F := Ideal) q k (idx_main_v6 (idx_main_v7 (ix4 (0 : Fin 1) h r j)))) = _
  rw [logit_apply, show idx_main_v6 (idx_main_v7 (ix4 (0 : Fin 1) h r j)) = ix3 (0 : Fin 1) h r from (funext fun a => Fin.ext (by match a with | ⟨0, _⟩ => rfl | ⟨1, _⟩ => rfl | ⟨2, _⟩ => rfl)), rowmax_apply]
  rfl

/-- Their row sum: the host's sum starts from the pattern of `0`. -/
theorem den_apply (h : Fin 16) (r : Fin 2048) :
    val_main_v10 (F := Ideal) q k (ix3 (0 : Fin 1) h r) = ∑ j : Fin 2048, expShift (logits q k h r) j := by
  rw [val_main_v10_apply, val_main_cst_2_apply]
  show Ideal.ofBits .f32 0x00000000#32 + _ = _
  rw [Ideal.ofBits_zero_f32, zero_add]
  refine Finset.sum_congr rfl fun j _ => ?_
  rw [← exp_apply]
  exact congrArg (val_main_v9 (F := Ideal) q k) (funext fun a => Fin.ext (by match a with | ⟨0, _⟩ => rfl | ⟨1, _⟩ => rfl | ⟨2, _⟩ => rfl | ⟨3, _⟩ => rfl))

/-- The softmax weights. -/
theorem weight_apply (h : Fin 16) (r j : Fin 2048) :
    val_main_v13 (F := Ideal) q k (ix4 (0 : Fin 1) h r j)
      = Ideal.div (expShift (logits q k h r) j) (∑ j' : Fin 2048, expShift (logits q k h r) j') := by
  rw [val_main_v13_apply, val_main_v12_apply, val_main_v11_apply]
  show Ideal.div (val_main_v9 (F := Ideal) q k (ix4 (0 : Fin 1) h r j))
    (val_main_v10 (F := Ideal) q k (idx_main_v11 (idx_main_v12 (ix4 (0 : Fin 1) h r j)))) = _
  rw [exp_apply, show idx_main_v11 (idx_main_v12 (ix4 (0 : Fin 1) h r j)) = ix3 (0 : Fin 1) h r from (funext fun a => Fin.ext (by match a with | ⟨0, _⟩ => rfl | ⟨1, _⟩ => rfl | ⟨2, _⟩ => rfl)), den_apply]

/-- THE REFERENCE'S RESULT is attention of its arguments. -/
theorem ref_eq : val_main_v14 (F := Ideal) q k v = out q k v := by
  funext i
  obtain ⟨u, h, r, d, rfl⟩ : ∃ (u : Fin 1) (h : Fin 16) (r : Fin 2048) (d : Fin 64), i = ix4 u h r d :=
    ⟨i 0, i 1, i 2, i 3, eq_ix4 i⟩
  obtain rfl : u = 0 := Subsingleton.elim _ _
  rw [val_main_v14_apply]
  show _ = attend (logits q k h r) (column v h d)
  unfold attend
  refine Finset.sum_congr rfl fun j _ => congrArg₂ (· * ·) ?_ ?_
  · rw [← weight_apply]
    exact congrArg (val_main_v13 (F := Ideal) q k) (funext fun a => Fin.ext (by match a with | ⟨0, _⟩ => rfl | ⟨1, _⟩ => rfl | ⟨2, _⟩ => rfl | ⟨3, _⟩ => rfl))
  · exact congrArg v (funext fun a => Fin.ext (by match a with | ⟨0, _⟩ => rfl | ⟨1, _⟩ => rfl | ⟨2, _⟩ => rfl | ⟨3, _⟩ => rfl))

end Cert.ReferenceIdeal.RefValue

end
-- ==== Proof.lean ====
/-
  Dense softmax attention, a blocked kernel against the plain formula.

  The kernel sweeps a grid of (head, block of 256 query rows). At each point it holds the block's queries and
  the whole head's keys and values, and computes, row by row,
      logits = (q · kᵀ) · 0.125,   w = exp (logits − rowmax) / rowsum,   out = w · v.
  The reference computes the same expression on the whole arrays at once, with the scale written 1 / sqrt 64.
  On the extended reals sqrt 64 = 8, so the two scales are the one number 1/8 (Proof/Scale.lean); and since a
  softmax row depends only on its own query row and its head's keys and values, cutting the rows into blocks
  changes nothing. Both programs therefore end with the result at ONE function of the arguments, `Attention.out`:
  the kernel by Proof/KernelArray.lean (each grid point writes its block of that function, the blocks tile the
  output, and the reshapes around the region only drop and restore the unit batch axis), the reference by
  Proof/RefValue.lean (its operations composed index by index). No law of arithmetic beyond that equality of
  scales is used, so the finiteness of the inputs is never needed.
  The three frames are the generated ones (the reference's is its generated run with the result dropped), and the
  idealization rewrote nothing, so `preserves` is `True`.
-/
import proofs.«121440_g55705725829376_cont_9to1c4b_399_2_alg».proof.Defs
import proofs.«121440_g55705725829376_cont_9to1c4b_399_2_alg».proof.Proof.Gen.Kernel
import proofs.«121440_g55705725829376_cont_9to1c4b_399_2_alg».proof.Proof.Gen.Kernel.Skeleton
import proofs.«121440_g55705725829376_cont_9to1c4b_399_2_alg».proof.Proof.Gen.Kernel.Launch
import proofs.«121440_g55705725829376_cont_9to1c4b_399_2_alg».proof.Proof.Gen.Kernel.Points
import proofs.«121440_g55705725829376_cont_9to1c4b_399_2_alg».proof.Proof.Gen.Kernel.Frame
import proofs.«121440_g55705725829376_cont_9to1c4b_399_2_alg».proof.Proof.Gen.KernelIdeal
import proofs.«121440_g55705725829376_cont_9to1c4b_399_2_alg».proof.Proof.Gen.KernelIdeal.Skeleton
import proofs.«121440_g55705725829376_cont_9to1c4b_399_2_alg».proof.Proof.Gen.KernelIdeal.Launch
import proofs.«121440_g55705725829376_cont_9to1c4b_399_2_alg».proof.Proof.Gen.KernelIdeal.Points
import proofs.«121440_g55705725829376_cont_9to1c4b_399_2_alg».proof.Proof.Gen.KernelIdeal.Frame
import proofs.«121440_g55705725829376_cont_9to1c4b_399_2_alg».proof.Proof.Gen.ReferenceIdeal
import proofs.«121440_g55705725829376_cont_9to1c4b_399_2_alg».proof.Proof.Gen.ReferenceIdeal.Run
import proofs.«121440_g55705725829376_cont_9to1c4b_399_2_alg».proof.Proof.Gen.ReferenceIdeal.Read
import proofs.«121440_g55705725829376_cont_9to1c4b_399_2_alg».proof.Proof.Gen.Pre_finite_inputs
import proofs.«121440_g55705725829376_cont_9to1c4b_399_2_alg».proof.Proof.KernelArray
import proofs.«121440_g55705725829376_cont_9to1c4b_399_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the result at attention of those arguments. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v14_eq _ _ _).trans (Cert.ReferenceIdeal.RefValue.ref_eq _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
